-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S_ : Shape := ⟨0, ![]⟩

class Facts : Prop where
  reducesTo_S4096x4096_S4096_d1 : S4096x4096.ReducesTo [1] S4096
  h_S_ : 0 < S_.numel
  bcast_S_S4x2048x4096 : S_.BroadcastsInDim S4x2048x4096 (![] : Fin 0 → Fin S4x2048x4096.rank)
  reducesTo_S4x2048x4096_S_d0_1_2 : S4x2048x4096.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S32x4096 : S_.BroadcastsInDim S32x4096 (![] : Fin 0 → Fin S32x4096.rank)
  reducesTo_S32x4096_S_d0_1 : S32x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  dot_S4096x32_S32x4096_S4096x4096_1_0_0_1_n_n_wf : DotDims.WF S4096x32 S32x4096 S4096x4096 [1] [0] [0] [1] [] []

variable [Facts]

def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def fn_part1 {F : FTy → Type} [FloatOps F] (main_arg3 : FVec F S4096x32 .f32) (main_arg4 : FVec F S4096 .f32) (main_v4 : FVec F S4096 .f32) (main_v13 : IVec S_ 1) (main_v16 : IVec S32x4096 1) (main_c_4 : IVec S_ 1) : IVec S_ 1 :=
  let main_v17 : IVec S_ 1 := (fun x v => Host.reduce IntOp.andi x v reducesTo_S32x4096_S_d0_1 h_S_) main_v16 main_c_4
  let main_v18 : IVec S_ 1 := andi main_v13 main_v17
  let main_v19 : FVec F S4096x32 .f32 := Host.absf main_arg3
  let main_cst_5 : FVec F S_ .f32 := constant S_ .f32 0x7F800000#32
  let main_v20 : FVec F S4096x32 .f32 := broadcastInDim S4096x32 ![] bcast_S_S4096x32 main_cst_5
  let main_v21 : IVec S4096x32 1 := cmpf .olt main_v19 main_v20
  let main_c_6 : IVec S_ 1 := constantI S_ 1 1#1
  let main_v22 : IVec S_ 1 := (fun x v => Host.reduce IntOp.andi x v reducesTo_S4096x32_S_d0_1 h_S_) main_v21 main_c_6
  let main_v23 : IVec S_ 1 := andi main_v18 main_v22
  let main_v24 : FVec F S4096 .f32 := Host.absf main_arg4
  let main_cst_7 : FVec F S_ .f32 := constant S_ .f32 0x7F800000#32
  let main_v25 : FVec F S4096 .f32 := broadcastInDim S4096 ![] bcast_S_S4096 main_cst_7
  let main_v26 : IVec S4096 1 := cmpf .olt main_v24 main_v25
  let main_c_8 : IVec S_ 1 := constantI S_ 1 1#1
  let main_v27 : IVec S_ 1 := (fun x v => Host.reduce IntOp.andi x v reducesTo_S4096_S_d0 h_S_) main_v26 main_c_8
  let main_v28 : IVec S_ 1 := andi main_v23 main_v27
  let main_cst_9 : FVec F S_ .f32 := constant S_ .f32 0x00000000#32
  let main_v29 : FVec F S4096 .f32 := broadcastInDim S4096 ![] bcast_S_S4096 main_cst_9
  let main_v30 : IVec S4096 1 := cmpf .ogt main_v4 main_v29
  let main_c_10 : IVec S_ 1 := constantI S_ 1 1#1
  let main_v31 : IVec S_ 1 := (fun x v => Host.reduce IntOp.andi x v reducesTo_S4096_S_d0 h_S_) main_v30 main_c_10
  let main_v32 : IVec S_ 1 := andi main_v28 main_v31
  main_v32

def fn {F : FTy → Type} [FloatOps F] (main_arg0 : FVec F S4x2048x4096 .f32) (main_arg1 : FVec F S4096x4096 .f32) (main_arg2 : FVec F S32x4096 .f32) (main_arg3 : FVec F S4096x32 .f32) (main_arg4 : FVec F S4096 .f32) : IVec S_ 1 :=
  let main_v0 : FVec F S4096x4096 .f32 := (fun l r => Host.dotGeneral dot_S4096x32_S32x4096_S4096x4096_1_0_0_1_n_n none l r) main_arg3 main_arg2
  let main_v1 : FVec F S4096x4096 .f32 := addf main_arg1 main_v0
  let main_v2 : FVec F S4096x4096 .f32 := mulf main_v1 main_v1
  let main_cst : FVec F S_ .f32 := constant S_ .f32 0x00000000#32
  let main_v3 : FVec F S4096 .f32 := (fun x v => Host.reduceAdd x v reducesTo_S4096x4096_S4096_d1 h_S_) main_v2 main_cst
  let main_v4 : FVec F S4096 .f32 := Host.sqrt main_v3
  let main_v5 : FVec F S4x2048x4096 .f32 := Host.absf main_arg0
  let main_cst_0 : FVec F S_ .f32 := constant S_ .f32 0x7F800000#32
  let main_v6 : FVec F S4x2048x4096 .f32 := broadcastInDim S4x2048x4096 ![] bcast_S_S4x2048x4096 main_cst_0
  let main_v7 : IVec S4x2048x4096 1 := cmpf .olt main_v5 main_v6
  let main_c : IVec S_ 1 := constantI S_ 1 1#1
  let main_v8 : IVec S_ 1 := (fun x v => Host.reduce IntOp.andi x v reducesTo_S4x2048x4096_S_d0_1_2 h_S_) main_v7 main_c
  let main_v9 : FVec F S4096x4096 .f32 := Host.absf main_arg1
  let main_cst_1 : FVec F S_ .f32 := constant S_ .f32 0x7F800000#32
  let main_v10 : FVec F S4096x4096 .f32 := broadcastInDim S4096x4096 ![] bcast_S_S4096x4096 main_cst_1
  let main_v11 : IVec S4096x4096 1 := cmpf .olt main_v9 main_v10
  let main_c_2 : IVec S_ 1 := constantI S_ 1 1#1
  let main_v12 : IVec S_ 1 := (fun x v => Host.reduce IntOp.andi x v reducesTo_S4096x4096_S_d0_1 h_S_) main_v11 main_c_2
  let main_v13 : IVec S_ 1 := andi main_v8 main_v12
  let main_v14 : FVec F S32x4096 .f32 := Host.absf main_arg2
  let main_cst_3 : FVec F S_ .f32 := constant S_ .f32 0x7F800000#32
  let main_v15 : FVec F S32x4096 .f32 := broadcastInDim S32x4096 ![] bcast_S_S32x4096 main_cst_3
  let main_v16 : IVec S32x4096 1 := cmpf .olt main_v14 main_v15
  let main_c_4 : IVec S_ 1 := constantI S_ 1 1#1
  fn_part1 (F := F) main_arg3 main_arg4 main_v4 main_v13 main_v16 main_c_4
-- ==== Kernel.lean ====
abbrev S4x2048x4096 : Shape := ⟨3, ![4, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S8192x4096 : Shape := ⟨2, ![8192, 4096]⟩
abbrev S8192x32 : Shape := ⟨2, ![8192, 32]⟩
abbrev S_ : Shape := ⟨0, ![]⟩
abbrev S1x4096 : Shape := ⟨2, ![1, 4096]⟩
abbrev S512x1024 : Shape := ⟨2, ![512, 1024]⟩
abbrev S512x512 : Shape := ⟨2, ![512, 512]⟩
abbrev S1x512 : Shape := ⟨2, ![1, 512]⟩

abbrev nBuf : Space → Nat
  | .hbm => 20
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S32x4096, .f32⟩
  | .hbm, ⟨3, _⟩ => ⟨S4096x32, .f32⟩
  | .hbm, ⟨4, _⟩ => ⟨S4096, .f32⟩
  | .hbm, ⟨5, _⟩ => ⟨S8192x4096, .f32⟩
  | .hbm, ⟨6, _⟩ => ⟨S4096x32, .f32⟩
  | .hbm, ⟨7, _⟩ => ⟨S8192x32, .f32⟩
  | .hbm, ⟨8, _⟩ => ⟨S32x4096, .f32⟩
  | .hbm, ⟨9, _⟩ => ⟨S8192x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S1x4096, .f32⟩
  | .hbm, ⟨18, _⟩ => ⟨S8192x4096, .f32⟩
  | .hbm, ⟨19, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  transposes_S32x4096_S4096x32_1_0 : S32x4096.Transposes [1, 0] S4096x32
  transposes_S4096x32_S32x4096_1_0 : S4096x32.Transposes [1, 0] S32x4096
  reducesTo_S4096x4096_S4096_d1 : S4096x4096.ReducesTo [1] S4096
  h_S_ : 0 < S_.numel
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S8192x4096_S4x2048x4096 : S8192x4096.ShapeCasts S4x2048x4096
  dot_S8192x4096_S4096x32_S8192x32_1_0_0_1_n_n_wf : DotDims.WF S8192x4096 S4096x32 S8192x32 [1] [0] [0] [1] [] []
  dot_S8192x32_S32x4096_S8192x4096_1_0_0_1_n_n_wf : DotDims.WF S8192x32 S32x4096 S8192x4096 [1] [0] [0] [1] [] []
  dot_S4096x32_S32x4096_S4096x4096_1_0_0_1_n_n_wf : DotDims.WF S4096x32 S32x4096 S4096x4096 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x4096.size a
  hwx0_2 : ∀ i : grid0.Coords, EltTy.bits .f32 = 32 ∨ (Rect.block (s := S8192x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x4096.size a
  hwx0_4 : ∀ i : grid0.Coords, EltTy.bits .f32 = 32 ∨ (Rect.block (s := S8192x4096) S512x512.size (cc0_transform_4 i) (hinb0_4 i)).WholeWords (EltTy.packing .f32)

variable [Facts₀]

def dot_S8192x4096_S4096x32_S8192x32_1_0_0_1_n_n : DotDims S8192x4096 S4096x32 S8192x32 where
  lhsContracting := [1]
  rhsContracting := [0]
  lhsNonContracting := [0]
  rhsNonContracting := [1]
  lhsBatch := []
  rhsBatch := []
  wf := dot_S8192x4096_S4096x32_S8192x32_1_0_0_1_n_n_wf
def dot_S8192x32_S32x4096_S8192x4096_1_0_0_1_n_n : DotDims S8192x32 S32x4096 S8192x4096 where
  lhsContracting := [1]
  rhsContracting := [0]
  lhsNonContracting := [0]
  rhsNonContracting := [1]
  lhsBatch := []
  rhsBatch := []
  wf := dot_S8192x32_S32x4096_S8192x4096_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S32x4096 : Shape := ⟨2, ![32, 4096]⟩
abbrev S4096x32 : Shape := ⟨2, ![4096, 32]⟩
abbrev S4096 : Shape := ⟨1, ![4096]⟩
abbrev S4x2048x32 : Shape := ⟨3, ![4, 2048, 32]⟩
abbrev S_ : Shape := ⟨0, ![]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S32x4096, .f32⟩
  | .hbm, ⟨3, _⟩ => ⟨S4096x32, .f32⟩
  | .hbm, ⟨4, _⟩ => ⟨S4096, .f32⟩
  | .hbm, ⟨5, _⟩ => ⟨S4x2048x4096, .f32⟩
  | .hbm, ⟨6, _⟩ => ⟨S4x2048x32, .f32⟩
  | .hbm, ⟨7, _⟩ => ⟨S4x2048x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4x2048x4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S32x4096_S4x2048x32_2_1_01_0_n_n_wf : DotDims.WF S4x2048x4096 S32x4096 S4x2048x32 [2] [1] [0, 1] [0] [] []
  dot_S4x2048x32_S4096x32_S4x2048x4096_2_1_01_0_n_n_wf : DotDims.WF S4x2048x32 S4096x32 S4x2048x4096 [2] [1] [0, 1] [0] [] []
  dot_S4096x32_S32x4096_S4096x4096_1_0_0_1_n_n_wf : DotDims.WF S4096x32 S32x4096 S4096x4096 [1] [0] [0] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S32x4096_S4x2048x32_2_1_01_0_n_n : DotDims S4x2048x4096 S32x4096 S4x2048x32 where
  lhsContracting := [2]
  rhsContracting := [1]
  lhsNonContracting := [0, 1]
  rhsNonContracting := [0]
  lhsBatch := []
  rhsBatch := []
  wf := dot_S4x2048x4096_S32x4096_S4x2048x32_2_1_01_0_n_n_wf
def dot_S4x2048x32_S4096x32_S4x2048x4096_2_1_01_0_n_n : DotDims S4x2048x32 S4096x32 S4x2048x4096 where
  lhsContracting := [2]
  rhsContracting := [1]
  lhsNonContracting := [0, 1]
  rhsNonContracting := [0]
  lhsBatch := []
  rhsBatch := []
  wf := dot_S4x2048x32_S4096x32_S4x2048x4096_2_1_01_0_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf

class Facts : Prop extends Facts₀ where

variable [Facts]
-- ==== Proof.KPieces.lean ====
/-
  What each case of the kernel body leaves behind, as a pure function of the blocks it loads.

  The body has three cases by the innermost grid coordinate: at the first step of a stretch it zeroes the scratch
  block, reads it back and adds the step's product; at a middle step it adds the product to what the scratch held; at
  the last step it does the same and then writes the output block from the finished scratch, the update block and the
  scale row. Each store covers its whole buffer, so what a buffer ends holding is the last store's value.
-/
import proofs.«165296_j4243427688520_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

theorem hz1 : (![0, 0] : Fin 2 → Nat) = fun _ => 0 := hz

/-- At a stretch's first step the scratch is zeroed, read back, and left at the zero block plus the step's product. -/
theorem sout_A (c : Dev nD) (i : grid0.Coords) (a3 : Memref sig .tc .vmem S512x1024 .f32) (h3 : a3.IsWhole) (a4 : Memref sig .tc .vmem S512x1024 .f32) (h4 : a4.IsWhole) (a5 : Memref sig .tc .vmem S512x512 .f32) (h5 : a5.IsWhole) (a6 : Memref sig .tc .vmem S1x512 .f32) (h6 : a6.IsWhole) (a7 : Memref sig .tc .vmem S512x512 .f32) (h7 : a7.IsWhole) (a8 : Memref sig .tc .vmem S512x512 .f32) (h8 : a8.IsWhole) (hc0 : cond0_0 i) (hc1 : ¬cond0_1 i) (x0 : Vec F S512x1024 .f32) (x1 : Vec F S512x1024 .f32) (x2 : Vec F S512x512 .f32) (x3 : Vec F S1x512 .f32) :
    sout0_A_0 c i a3 h3 a4 h4 a5 h5 a6 h6 a7 h7 a8 h8 hc0 hc1 x0 x1 x2 x3 = k0_pay2 x0 x1 (k0_pay1 (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x512) hz, View.readCov_unit_zero (S := S512x512) _ hz]
  simp only [View.readAt_eq_ld, h3.read_unread, h4.read_unread, View.ld_unit_zero (S := S512x1024) hz]

/-- At a middle step the scratch is left at what it held plus the step's product. -/
theorem sout_B (c : Dev nD) (i : grid0.Coords) (a3 : Memref sig .tc .vmem S512x1024 .f32) (h3 : a3.IsWhole) (a4 : Memref sig .tc .vmem S512x1024 .f32) (h4 : a4.IsWhole) (a5 : Memref sig .tc .vmem S512x512 .f32) (h5 : a5.IsWhole) (a6 : Memref sig .tc .vmem S1x512 .f32) (h6 : a6.IsWhole) (a7 : Memref sig .tc .vmem S512x512 .f32) (h7 : a7.IsWhole) (a8 : Memref sig .tc .vmem S512x512 .f32) (h8 : a8.IsWhole) (hc0 : ¬cond0_0 i) (hc1 : ¬cond0_1 i) (x0 : Vec F S512x1024 .f32) (x1 : Vec F S512x1024 .f32) (x2 : Vec F S512x512 .f32) (x3 : Vec F S1x512 .f32) (xs : Vec F S512x512 .f32) :
    sout0_B_0 c i a3 h3 a4 h4 a5 h5 a6 h6 a7 h7 a8 h8 hc0 hc1 x0 x1 x2 x3 xs = k0_pay2 x0 x1 xs := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  sl_unfold_words
  rw [View.canon_unit_zero hz]
  simp only [View.readAt_eq_ld, h3.read_unread, h4.read_unread, h8.read_unread, View.ld_unit_zero (S := S512x1024) hz,
    View.ld_unit_zero (S := S512x512) hz]

/-- At a stretch's last step likewise, -/
theorem sout_C (c : Dev nD) (i : grid0.Coords) (a3 : Memref sig .tc .vmem S512x1024 .f32) (h3 : a3.IsWhole) (a4 : Memref sig .tc .vmem S512x1024 .f32) (h4 : a4.IsWhole) (a5 : Memref sig .tc .vmem S512x512 .f32) (h5 : a5.IsWhole) (a6 : Memref sig .tc .vmem S1x512 .f32) (h6 : a6.IsWhole) (a7 : Memref sig .tc .vmem S512x512 .f32) (h7 : a7.IsWhole) (a8 : Memref sig .tc .vmem S512x512 .f32) (h8 : a8.IsWhole) (hc0 : ¬cond0_0 i) (hc1 : cond0_1 i) (x0 : Vec F S512x1024 .f32) (x1 : Vec F S512x1024 .f32) (x2 : Vec F S512x512 .f32) (x3 : Vec F S1x512 .f32) (xs : Vec F S512x512 .f32) :
    sout0_C_0 c i a3 h3 a4 h4 a5 h5 a6 h6 a7 h7 a8 h8 hc0 hc1 x0 x1 x2 x3 xs = k0_pay2 x0 x1 xs := by
  unfold sout0_C_0
  rw [View.read_writes_eq_canon _ _ _ (scover0_C_0 c i a3 h3 a4 h4 a5 h5 a6 h6 a7 h7 a8 h8 hc0 hc1 x0 x1 x2 x3 xs)]
  unfold kernelRun0_C
  dsimp only
  sl_unfold_words
  rw [View.canon_unit_zero hz]
  simp only [View.readAt_eq_ld, h3.read_unread, h4.read_unread, h8.read_unread, View.ld_unit_zero (S := S512x1024) hz,
    View.ld_unit_zero (S := S512x512) hz]

/-- and the output block is the finished accumulator plus the update block, times the scale row. -/
theorem out_C (c : Dev nD) (i : grid0.Coords) (a3 : Memref sig .tc .vmem S512x1024 .f32) (h3 : a3.IsWhole) (a4 : Memref sig .tc .vmem S512x1024 .f32) (h4 : a4.IsWhole) (a5 : Memref sig .tc .vmem S512x512 .f32) (h5 : a5.IsWhole) (a6 : Memref sig .tc .vmem S1x512 .f32) (h6 : a6.IsWhole) (a7 : Memref sig .tc .vmem S512x512 .f32) (h7 : a7.IsWhole) (a8 : Memref sig .tc .vmem S512x512 .f32) (h8 : a8.IsWhole) (hc0 : ¬cond0_0 i) (hc1 : cond0_1 i) (x0 : Vec F S512x1024 .f32) (x1 : Vec F S512x1024 .f32) (x2 : Vec F S512x512 .f32) (x3 : Vec F S1x512 .f32) (xs : Vec F S512x512 .f32) :
    out0_C_4 c i a3 h3 a4 h4 a5 h5 a6 h6 a7 h7 a8 h8 hc0 hc1 x0 x1 x2 x3 xs = k0_pay3 (k0_pay2 x0 x1 xs) x2 x3 := by
  unfold out0_C_4
  rw [View.read_writes_eq_canon _ _ _ (cover0_C_4 c i a3 h3 a4 h4 a5 h5 a6 h6 a7 h7 a8 h8 hc0 hc1 x0 x1 x2 x3 xs)]
  unfold kernelRun0_C
  dsimp only
  sl_unfold_words
  rw [View.canon_unit_zero hz]
  simp only [View.readAt_eq_ld, h3.read_unread, h4.read_unread, h5.read_unread, h6.read_unread, h8.read_unread,
    View.ld_unit_zero (S := S512x1024) hz, View.ld_unit_zero (S := S512x512) hz, View.ld_unit_zero (S := S1x512) hz,
    View.readCov_unit_zero (S := S512x512) _ hz]

end Cert.KernelIdeal.KValue
end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.KPay.lean ====
/-
  The kernel body's three payloads read at an entry, over the extended reals.

  One step of the accumulation adds to the entry (p, q) of the running block the product of row `p` of the activation
  block with row `q` of the weight block (both blocks hold 1024 columns: the weight is used transposed); the closing step
  adds the update block and multiplies by the scale row's entry `q`.
-/
import proofs.«165296_j4243427688520_1_alg».proof.Proof.Gen.KernelIdeal.Skeleton
import proofs.«165296_j4243427688520_1_alg».proof.Proof.LibRowBlock
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.KValue

open Cert.KernelIdeal Cert.KernelIdeal.Gen Cert.RowBlock.IsRows

/-- A product `L·Rᵀ` of two matrices with the same number of columns, read at an entry, is the sum over the shared columns. -/
theorem dot_rowrow_sum {M K N' : Nat} (D : DotDims ⟨2, ![M, K]⟩ ⟨2, ![N', K]⟩ ⟨2, ![M, N']⟩) (hD : Plain D 1 0 1 0)
    (L : (⟨2, ![M, K]⟩ : Shape).Idx → EReal) (R : (⟨2, ![N', K]⟩ : Shape).Idx → EReal) (r : Fin M) (c : Fin N') :
    ∑ k : D.contr.Idx, L (D.lhsIdx (ix2 r c) k) * R (D.rhsIdx (ix2 r c) k) = ∑ k : Fin K, L (ix2 r k) * R (ix2 c k) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [1] [0] [0] [] [] wf) K rfl rfl).symm]
  refine Finset.sum_congr rfl fun k _ => ?_
  have hk := contrEquiv1_symm_val (DotDims.mk [1] [1] [0] [0] [] [] wf) K rfl rfl k
  have l0 : ∀ q, ((DotDims.mk [1] [1] [0] [0] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r0 : ∀ q, ((DotDims.mk [1] [1] [0] [0] [] [] wf).rhsIdx (ix2 r c) q 0).val = c.val := fun q => by
    unfold DotDims.rhsIdx
    rw [dif_neg (show ¬(0 : Fin 2) ∈ ([] : List (Fin 2)) by decide), dif_pos (show (0 : Fin 2) ∈ ([0] : List (Fin 2)) by decide)]
    rfl
  have el : (DotDims.mk [1] [1] [0] [0] [] [] wf).lhsIdx (ix2 r c) ((contrEquiv1 (DotDims.mk [1] [1] [0] [0] [] [] wf) K rfl rfl).symm k)
      = ix2 r k := funext fun a => Fin.ext (by
    match a with
    | ⟨0, _⟩ => exact l0 _
    | ⟨1, _⟩ => exact ((DotDims.mk [1] [1] [0] [0] [] [] wf).lhsIdx_val_of_single rfl _ _).trans hk)
  have er : (DotDims.mk [1] [1] [0] [0] [] [] wf).rhsIdx (ix2 r c) ((contrEquiv1 (DotDims.mk [1] [1] [0] [0] [] [] wf) K rfl rfl).symm k)
      = ix2 c k := funext fun a => Fin.ext (by
    match a with
    | ⟨0, _⟩ => exact r0 _
    | ⟨1, _⟩ => exact ((DotDims.mk [1] [1] [0] [0] [] [] wf).rhsIdx_val_of_single rfl _ _).trans hk)
  rw [el, er]

/-- The zero block's entries. -/
theorem pay1_apply (p q : Fin 512) : k0_pay1 (F := Ideal) (ix2 p q) = Ideal.ofBits .f32 0x00000000#32 := by
  unfold k0_pay1
  rw [shapeCast_self]
  rfl

/-- One accumulation step at an entry. -/
theorem pay2_apply (a b : Vec Ideal S512x1024 .f32) (s : Vec Ideal S512x512 .f32) (p q : Fin 512) :
    k0_pay2 (F := Ideal) a b s (ix2 p q) = s (ix2 p q) + ∑ kk : Fin 1024, a (ix2 p kk) * b (ix2 q kk) := by
  unfold k0_pay2
  rw [shapeCast_self, shapeCast_self]
  rw [addf_apply]
  simp only [matmul]
  rw [Ideal.matmul_constant_zero_apply, dot_rowrow_sum dot_S512x1024_S512x1024_S512x512_1_1_0_0_n_n ⟨rfl, rfl, rfl, rfl, rfl, rfl⟩]
  rfl

/-- The closing step at an entry. -/
theorem pay3_apply (u v : Vec Ideal S512x512 .f32) (w : Vec Ideal S1x512 .f32) (p q : Fin 512) :
    k0_pay3 (F := Ideal) u v w (ix2 p q) = (u (ix2 p q) + v (ix2 p q)) * w (ix2 (0 : Fin 1) q) := by
  unfold k0_pay3
  rw [shapeCast_self, shapeCast_self]
  rw [mulf_apply, addf_apply, broadcastTo_1b_ab_apply]

end Cert.KernelIdeal.KValue
end
-- ==== Proof.KAcc.lean ====
/-
  The accumulation over a stretch of four grid points, and the output block it ends in.

  The grid is 16 × 8 × 4, the last axis innermost: point `32·i + 4·j + k` works on row block `i` (512 rows) of the
  activations, row block `j` (512 rows) of the weight, and the `k`-th stretch of 1024 columns of both. The scratch block
  is zeroed at `k = 0` and gains one stretch's product per point; at `k = 3` the output block (i, j) is the finished
  sum plus the update block (i, j), times the scale row's block `j`.
-/
import proofs.«165296_j4243427688520_1_alg».proof.Proof.KPieces
import proofs.«165296_j4243427688520_1_alg».proof.Proof.KPay

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ)

/-- The four arrays the region reads, as it finds them. -/
abbrev xmat (c : Dev nD) : S8192x4096.Idx → EReal := V m c main_v0
abbrev wmat (c : Dev nD) : S4096x4096.Idx → EReal := V m c main_arg1
abbrev lmat (c : Dev nD) : S8192x4096.Idx → EReal := V m c main_v4
abbrev srow (c : Dev nD) : S1x4096.Idx → EReal := V m c main_v11

/-- and their blocks at a point. -/
abbrev xblk (c : Dev nD) (t : Fin cfg0.N) : Vec Ideal S512x1024 .f32 := iblk m c 0 t
abbrev wblk (c : Dev nD) (t : Fin cfg0.N) : Vec Ideal S512x1024 .f32 := iblk m c 1 t
abbrev lblk (c : Dev nD) (t : Fin cfg0.N) : Vec Ideal S512x512 .f32 := iblk m c 2 t
abbrev sblk (c : Dev nD) (t : Fin cfg0.N) : Vec Ideal S1x512 .f32 := iblk m c 3 t

/-- The scratch block after a point. -/
abbrev accAt (c : Dev nD) (t : Fin cfg0.N) : Vec Ideal S512x512 .f32 := (outsAt0 m c t.val t.isLt).2

/-- The block indices of every window at every point, decided once over the grid. -/
theorem idx_facts : ∀ t : Fin cfg0.N,
    win0_0.index t (0 : Fin 2) = t.val / 32 ∧ win0_0.index t (1 : Fin 2) = t.val % 4
    ∧ win0_1.index t (0 : Fin 2) = (t.val / 4) % 8 ∧ win0_1.index t (1 : Fin 2) = t.val % 4
    ∧ win0_2.index t (0 : Fin 2) = t.val / 32 ∧ win0_2.index t (1 : Fin 2) = (t.val / 4) % 8
    ∧ win0_3.index t (0 : Fin 2) = 0 ∧ win0_3.index t (1 : Fin 2) = (t.val / 4) % 8
    ∧ win0_4.index t (0 : Fin 2) = t.val / 32 ∧ win0_4.index t (1 : Fin 2) = (t.val / 4) % 8 :=
  (by decide +kernel : ∀ t : Fin grid0.N, _)

theorem hN : cfg0.N = 512 := N_0

/-- The point of block (i, j) at stretch `k`. -/
def pt (i : Fin 16) (j : Fin 8) (k : Fin 4) : Fin cfg0.N := ⟨32 * i.val + 4 * j.val + k.val, by rw [hN]; omega⟩

theorem pt_val (i : Fin 16) (j : Fin 8) (k : Fin 4) : (pt i j k).val = 32 * i.val + 4 * j.val + k.val := rfl

/-- Rows and columns of the blocks inside their arrays. -/
def xr (i : Fin 16) (p : Fin 512) : Fin 8192 := ⟨512 * i.val + p.val, by omega⟩
def wr (j : Fin 8) (q : Fin 512) : Fin 4096 := ⟨512 * j.val + q.val, by omega⟩
def kc (k : Fin 4) (kk : Fin 1024) : Fin 4096 := ⟨1024 * k.val + kk.val, by omega⟩

theorem xblk_apply (c : Dev nD) (i : Fin 16) (j : Fin 8) (k : Fin 4) (p : Fin 512) (kk : Fin 1024) :
    xblk m c (pt i j k) (ix2 p kk) = xmat m c (ix2 (xr i p) (kc k kk)) := by
  obtain ⟨e0, e1, -⟩ := idx_facts (pt i j k)
  unfold xblk iblk
  rw [View.read_apply]
  show V m c main_v0 _ = V m c main_v0 _
  congr 1
  funext a
  apply Fin.ext
  match a with
  | ⟨0, _⟩ => show win0_0.index (pt i j k) 0 * 512 + 1 * p.val = 512 * i.val + p.val; rw [e0, pt_val]; omega
  | ⟨1, _⟩ => show win0_0.index (pt i j k) 1 * 1024 + 1 * kk.val = 1024 * k.val + kk.val; rw [e1, pt_val]; omega

theorem wblk_apply (c : Dev nD) (i : Fin 16) (j : Fin 8) (k : Fin 4) (q : Fin 512) (kk : Fin 1024) :
    wblk m c (pt i j k) (ix2 q kk) = wmat m c (ix2 (wr j q) (kc k kk)) := by
  obtain ⟨-, -, e0, e1, -⟩ := idx_facts (pt i j k)
  unfold wblk iblk
  rw [View.read_apply]
  show V m c main_arg1 _ = V m c main_arg1 _
  congr 1
  funext a
  apply Fin.ext
  match a with
  | ⟨0, _⟩ => show win0_1.index (pt i j k) 0 * 512 + 1 * q.val = 512 * j.val + q.val; rw [e0, pt_val]; omega
  | ⟨1, _⟩ => show win0_1.index (pt i j k) 1 * 1024 + 1 * kk.val = 1024 * k.val + kk.val; rw [e1, pt_val]; omega

theorem lblk_apply (c : Dev nD) (i : Fin 16) (j : Fin 8) (k : Fin 4) (p q : Fin 512) :
    lblk m c (pt i j k) (ix2 p q) = lmat m c (ix2 (xr i p) (wr j q)) := by
  obtain ⟨-, -, -, -, e0, e1, -⟩ := idx_facts (pt i j k)
  unfold lblk iblk
  rw [View.read_apply]
  show V m c main_v4 _ = V m c main_v4 _
  congr 1
  funext a
  apply Fin.ext
  match a with
  | ⟨0, _⟩ => show win0_2.index (pt i j k) 0 * 512 + 1 * p.val = 512 * i.val + p.val; rw [e0, pt_val]; omega
  | ⟨1, _⟩ => show win0_2.index (pt i j k) 1 * 512 + 1 * q.val = 512 * j.val + q.val; rw [e1, pt_val]; omega

theorem sblk_apply (c : Dev nD) (i : Fin 16) (j : Fin 8) (k : Fin 4) (q : Fin 512) :
    sblk m c (pt i j k) (ix2 (0 : Fin 1) q) = srow m c (ix2 (0 : Fin 1) (wr j q)) := by
  obtain ⟨-, -, -, -, -, -, e0, e1, -⟩ := idx_facts (pt i j k)
  unfold sblk iblk
  rw [View.read_apply]
  show V m c main_v11 _ = V m c main_v11 _
  congr 1
  funext a
  apply Fin.ext
  match a with
  | ⟨0, _⟩ => show win0_3.index (pt i j k) 0 * 1 + 1 * 0 = 0; rw [e0]
  | ⟨1, _⟩ => show win0_3.index (pt i j k) 1 * 512 + 1 * q.val = 512 * j.val + q.val; rw [e1, pt_val]; omega

/-- One stretch's product at an entry of block (i, j). -/
def stretch (c : Dev nD) (i : Fin 16) (j : Fin 8) (k : Fin 4) (p q : Fin 512) : EReal :=
  ∑ kk : Fin 1024, xmat m c (ix2 (xr i p) (kc k kk)) * wmat m c (ix2 (wr j q) (kc k kk))

/-- The product of a point's two blocks at an entry is that stretch's product. -/
theorem stretch_blk (c : Dev nD) (i : Fin 16) (j : Fin 8) (k : Fin 4) (p q : Fin 512) :
    ∑ kk : Fin 1024, xblk m c (pt i j k) (ix2 p kk) * wblk m c (pt i j k) (ix2 q kk) = stretch m c i j k p q :=
  Finset.sum_congr rfl fun kk _ => by rw [xblk_apply, wblk_apply]

theorem outs_irrel (c : Dev nD) (n n' : ℕ) (h : n < cfg0.N) (h' : n' < cfg0.N) (e : n = n') :
    outsAt0 m c n h = outsAt0 m c n' h' := by subst e; rfl

/-- The first point of a stretch: the zero block plus the point's product. -/
theorem acc_first (c : Dev nD) (t : Fin cfg0.N) (h0 : t.val % 4 = 0) :
    accAt m c t = k0_pay2 (xblk m c t) (wblk m c t) (k0_pay1 (F := Ideal)) := by
  have h1 : ¬t.val % 4 = 3 := by omega
  show (outsAt0 m c t.val t.isLt).2 = _
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- Any later point: what the point before left plus the point's product. -/
theorem acc_next (c : Dev nD) (t t' : Fin cfg0.N) (h0 : ¬t.val % 4 = 0) (e : t.val - 1 = t'.val) :
    accAt m c t = k0_pay2 (xblk m c t) (wblk m c t) (accAt m c t') := by
  show (outsAt0 m c t.val t.isLt).2 = k0_pay2 (xblk m c t) (wblk m c t) (outsAt0 m c t'.val t'.isLt).2
  rw [← outs_irrel m c (t.val - 1) t'.val (Nat.lt_of_le_of_lt (Nat.sub_le _ _) t.isLt) t'.isLt e]
  by_cases h1 : t.val % 4 = 3
  · rw [outsAt0_C m c t h0 h1]
    dsimp only
    exact sout_C (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact sout_B (F := Ideal) c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) (fun h => h1 ((hcond0_1 t).mp h))
      (iblk m c 0 t) (iblk m c 1 t) (iblk m c 2 t) (iblk m c 3 t) (outsAt0 m c (t.val - 1) (Nat.lt_of_le_of_lt (Nat.sub_le _ _) t.isLt)).2

/-- The output block at a stretch's last point. -/
theorem out_last (c : Dev nD) (t t' : Fin cfg0.N) (h1 : t.val % 4 = 3) (e : t.val - 1 = t'.val) :
    (outsAt0 m c t.val t.isLt).1 = k0_pay3 (k0_pay2 (xblk m c t) (wblk m c t) (accAt m c t')) (lblk m c t) (sblk m c t) := by
  have h0 : ¬t.val % 4 = 0 := by omega
  show (outsAt0 m c t.val t.isLt).1 = k0_pay3 (k0_pay2 (xblk m c t) (wblk m c t) (outsAt0 m c t'.val t'.isLt).2) (lblk m c t) (sblk m c t)
  rw [← outs_irrel m c (t.val - 1) t'.val (Nat.lt_of_le_of_lt (Nat.sub_le _ _) t.isLt) t'.isLt e]
  rw [outsAt0_C m c t h0 h1]
  dsimp only
  exact out_C (F := Ideal) c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) (outsAt0 m c (t.val - 1) (Nat.lt_of_le_of_lt (Nat.sub_le _ _) t.isLt)).2

/-- The accumulator after the four points of block (i, j), entry by entry. -/
theorem acc0 (c : Dev nD) (i : Fin 16) (j : Fin 8) (p q : Fin 512) :
    accAt m c (pt i j 0) (ix2 p q) = Ideal.ofBits .f32 0x00000000#32 + stretch m c i j 0 p q := by
  rw [acc_first m c (pt i j 0) (by rw [pt_val]; show (32 * i.val + 4 * j.val + 0) % 4 = 0; omega), pay2_apply, pay1_apply, stretch_blk]

theorem acc_succ (c : Dev nD) (i : Fin 16) (j : Fin 8) (k k' : Fin 4) (hk : k'.val + 1 = k.val) (p q : Fin 512) :
    accAt m c (pt i j k) (ix2 p q) = accAt m c (pt i j k') (ix2 p q) + stretch m c i j k p q := by
  rw [acc_next m c (pt i j k) (pt i j k') (by rw [pt_val]; omega) (by rw [pt_val, pt_val]; omega), pay2_apply, stretch_blk]

/-- The output block (i, j), entry by entry: the four stretches summed from zero, plus the update, times the scale. -/
theorem out_apply (c : Dev nD) (i : Fin 16) (j : Fin 8) (p q : Fin 512) :
    (outsAt0 m c (pt i j 3).val (pt i j 3).isLt).1 (ix2 p q)
      = (((((Ideal.ofBits .f32 0x00000000#32 + stretch m c i j 0 p q) + stretch m c i j 1 p q) + stretch m c i j 2 p q)
            + stretch m c i j 3 p q) + lmat m c (ix2 (xr i p) (wr j q)))
          * srow m c (ix2 (0 : Fin 1) (wr j q)) := by
  rw [out_last m c (pt i j 3) (pt i j 2) (by rw [pt_val]; show (32 * i.val + 4 * j.val + 3) % 4 = 3; omega)
    (by rw [pt_val, pt_val]; show 32 * i.val + 4 * j.val + 3 - 1 = 32 * i.val + 4 * j.val + 2; omega)]
  rw [pay3_apply, pay2_apply, stretch_blk, lblk_apply, sblk_apply]
  rw [acc_succ m c i j 2 1 rfl, acc_succ m c i j 1 0 rfl, acc0]

end Cert.KernelIdeal.KValue
end
-- ==== Proof.Spec.lean ====
/-
  The mathematics of the certificate, with no program in sight.

  Inputs: activations `x` [4, 2048, 4096], a base weight `W` [4096, 4096], the two low-rank factors `A` [32, 4096] and
  `B` [4096, 32], and a per-output gain `g` [4096]. With `n o` the Euclidean norm of row `o` of the adapted weight
  `W + B·A`, both programs compute, at (b, s, o),

      (∑ᵢ x(b,s,i)·W(o,i)  +  ∑ᵣ (∑ᵢ x(b,s,i)·A(r,i))·B(o,r))  scaled by  g(o) / n(o).

  One of them divides the bracket by `n o` and then multiplies by `g o`; the other multiplies the bracket by the quotient
  `g o / n o`, and accumulates the first sum in four stretches of 1024 columns starting from zero. On the extended reals
  multiplication is commutative and associative, and so is addition, so the two agree wherever the quotient is a
  product with the inverse: wherever `n o ≠ 0`.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Dora

open Idealize.ShloMosaic Idealize.ShloMosaic.ValueIdx

abbrev SX : Shape := ⟨3, ![4, 2048, 4096]⟩
abbrev SW : Shape := ⟨2, ![4096, 4096]⟩
abbrev SA : Shape := ⟨2, ![32, 4096]⟩
abbrev SB : Shape := ⟨2, ![4096, 32]⟩
abbrev SV : Shape := ⟨1, ![4096]⟩
abbrev S0 : Shape := ⟨0, ![]⟩

/-- The product `B·A`: `B` contracted on its columns, `A` on its rows. -/
def dotBA : DotDims SB SA SW where
  lhsContracting := [1]
  rhsContracting := [0]
  lhsNonContracting := [0]
  rhsNonContracting := [1]
  lhsBatch := []
  rhsBatch := []
  wf := by decide

theorem redW : SW.ReducesTo [1] SV := by decide
theorem posS0 : 0 < S0.numel := by decide

/-- The norm of each row of the adapted weight `W + B·A`, as a host program spells it: the square root of the row sums of
    the squared entries. -/
def rowNorm (W : FVec Ideal SW .f32) (A : FVec Ideal SA .f32) (B : FVec Ideal SB .f32) : FVec Ideal SV .f32 :=
  Host.sqrt (Host.reduceAdd (mulf (addf W (Host.dotGeneral dotBA none B A)) (addf W (Host.dotGeneral dotBA none B A)))
    (constant S0 .f32 0x00000000#32) redW posS0)

variable (x : SX.Idx → EReal) (W : SW.Idx → EReal) (A : SA.Idx → EReal) (B : SB.Idx → EReal) (g : SV.Idx → EReal)

/-- The base product `x·Wᵀ` at (b, s, o). -/
def base (b : Fin 4) (s : Fin 2048) (o : Fin 4096) : EReal := ∑ i : Fin 4096, x (ix3 b s i) * W (ix2 o i)

/-- The down projection `x·Aᵀ` at (b, s, r). -/
def down (b : Fin 4) (s : Fin 2048) (r : Fin 32) : EReal := ∑ i : Fin 4096, x (ix3 b s i) * A (ix2 r i)

/-- The low-rank update `(x·Aᵀ)·Bᵀ` at (b, s, o). -/
def lora (b : Fin 4) (s : Fin 2048) (o : Fin 4096) : EReal := ∑ r : Fin 32, down x A b s r * B (ix2 o r)

/-- Column `kk` of the `k`-th stretch of 1024 columns. -/
def col (k : Fin 4) (kk : Fin 1024) : Fin 4096 := ⟨1024 * k.val + kk.val, by omega⟩

/-- The `k`-th stretch of the base product. -/
def part (k : Fin 4) (b : Fin 4) (s : Fin 2048) (o : Fin 4096) : EReal :=
  ∑ kk : Fin 1024, x (ix3 b s (col k kk)) * W (ix2 o (col k kk))

/-- Divide, then scale: one entry. -/
def refAt (b : Fin 4) (s : Fin 2048) (o : Fin 4096) : EReal :=
  Ideal.div (base x W b s o + lora x A B b s o) (rowNorm W A B (ix1 o)) * g (ix1 o)

/-- Accumulate the four stretches from zero, add the update, multiply by the quotient: one entry. -/
def kerAt (b : Fin 4) (s : Fin 2048) (o : Fin 4096) : EReal :=
  (((((Ideal.ofBits .f32 0x00000000#32 + part x W 0 b s o) + part x W 1 b s o) + part x W 2 b s o) + part x W 3 b s o)
      + lora x A B b s o)
    * Ideal.div (g (ix1 o)) (rowNorm W A B (ix1 o))

/-- The first arrangement as an array [4, 2048, 4096]. -/
def refOut : SX.Idx → EReal := fun j => refAt x W A B g (j 0) (j 1) (j 2)

/-- The second arrangement as an array [4, 2048, 4096]. -/
def kerOut : SX.Idx → EReal := fun j => kerAt x W A B g (j 0) (j 1) (j 2)

/-- Row `2048·b + s` of the activations laid out as a matrix [8192, 4096], and back. -/
def row (b : Fin 4) (s : Fin 2048) : Fin 8192 := ⟨2048 * b.val + s.val, by omega⟩
def rowB (r : Fin 8192) : Fin 4 := ⟨r.val / 2048, by omega⟩
def rowS (r : Fin 8192) : Fin 2048 := ⟨r.val % 2048, by omega⟩

theorem rowB_row (b : Fin 4) (s : Fin 2048) : rowB (row b s) = b := Fin.ext (by simp only [rowB, row]; omega)
theorem rowS_row (b : Fin 4) (s : Fin 2048) : rowS (row b s) = s := Fin.ext (by simp only [rowS, row]; omega)
theorem row_rowB_rowS (r : Fin 8192) : row (rowB r) (rowS r) = r := Fin.ext (by simp only [rowB, rowS, row]; omega)

/-- The second arrangement as a matrix [8192, 4096]: row `r` is (b, s) with `r = 2048·b + s`. -/
def kerMat : (⟨2, ![8192, 4096]⟩ : Shape).Idx → EReal := fun j => kerAt x W A B g (rowB (j 0)) (rowS (j 0)) (j 1)

/-- The 4096 columns are the four stretches of 1024, in order. -/
def colEquiv : Fin 4 × Fin 1024 ≃ Fin 4096 := finProdFinEquiv

theorem colEquiv_apply (k : Fin 4) (kk : Fin 1024) : colEquiv (k, kk) = col k kk :=
  Fin.ext (by simp [colEquiv, col, finProdFinEquiv]; omega)

theorem sum_cols {M : Type} [AddCommMonoid M] (f : Fin 4096 → M) : ∑ i : Fin 4096, f i = ∑ k : Fin 4, ∑ kk : Fin 1024, f (col k kk) := by
  rw [← Equiv.sum_comp colEquiv f, Fintype.sum_prod_type]
  exact Finset.sum_congr rfl fun k _ => Finset.sum_congr rfl fun kk _ => by rw [colEquiv_apply]

/-- The base product is the sum of its four stretches. -/
theorem base_eq_parts (b : Fin 4) (s : Fin 2048) (o : Fin 4096) :
    base x W b s o = part x W 0 b s o + part x W 1 b s o + part x W 2 b s o + part x W 3 b s o := by
  unfold base part
  rw [sum_cols, Fin.sum_univ_four]

/-- Where no row norm vanishes the two arrangements agree: the quotient by a nonzero `n` is the product with `n⁻¹`, and the
    products commute. -/
theorem kerAt_eq_refAt (h : ∀ o : Fin 4096, rowNorm W A B (ix1 o) ≠ 0) (b : Fin 4) (s : Fin 2048) (o : Fin 4096) :
    kerAt x W A B g b s o = refAt x W A B g b s o := by
  unfold kerAt refAt
  rw [Ideal.ofBits_zero_f32, zero_add, ← base_eq_parts]
  unfold Ideal.div
  rw [if_neg (h o), if_neg (h o)]
  generalize base x W b s o + lora x A B b s o = a
  generalize (rowNorm W A B (ix1 o))⁻¹ = c
  rw [mul_comm (g _) c, ← mul_assoc]

theorem kerOut_eq_refOut (h : ∀ o : Fin 4096, rowNorm W A B (ix1 o) ≠ 0) : kerOut x W A B g = refOut x W A B g :=
  funext fun j => kerAt_eq_refAt x W A B g h (j 0) (j 1) (j 2)

end Cert.Dora

end
-- ==== Proof.KernelHost.lean ====
/-
  What the program's first lines compute before its grid runs, read entry by entry.

  The activations `x` [4, 2048, 4096] are laid out as a matrix [8192, 4096]: row `r` is `(r / 2048, r % 2048)`. The
  low-rank update is that matrix times `Aᵀ`, times `Bᵀ`: at (r, o) it is `∑ₖ (∑ᵢ x(b,s,i)·A(k,i))·B(o,k)`. The gain is
  divided by the row norm of `W + B·A` and laid out as one row [1, 4096]. A reshape keeps the row-major position, a
  transpose swaps the two coordinates, and a plain product read at an entry is the sum over the shared axis.
-/
import proofs.«165296_j4243427688520_1_alg».proof.Proof.Gen.KernelIdeal.Frame
import proofs.«165296_j4243427688520_1_alg».proof.Proof.Spec
import proofs.«165296_j4243427688520_1_alg».proof.Proof.LibRowBlock
import Idealize.ShloMosaic.Lib.StableHlo.Run
import Idealize.ShloMosaic.Lib.ValueLayout

noncomputable section

namespace Cert.KernelIdeal.HostValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

abbrev xin (c : Dev nD) : FVec Ideal S4x2048x4096 .f32 := m ((c : Thread nD τ).loc main_arg0)
abbrev win (c : Dev nD) : FVec Ideal S4096x4096 .f32 := m ((c : Thread nD τ).loc main_arg1)
abbrev ain (c : Dev nD) : FVec Ideal S32x4096 .f32 := m ((c : Thread nD τ).loc main_arg2)
abbrev bin (c : Dev nD) : FVec Ideal S4096x32 .f32 := m ((c : Thread nD τ).loc main_arg3)
abbrev gin (c : Dev nD) : FVec Ideal S4096 .f32 := m ((c : Thread nD τ).loc main_arg4)

/-! ## The three arrays as terms of the arguments -/

/-- The activations laid out as a matrix: the reshape of the first argument. -/
theorem V_v0_term (c : Dev nD) : (V m c main_v0 : S8192x4096.Idx → EReal)
    = shapeCast S8192x4096 (xin m c) shapeCasts_S4x2048x4096_S8192x4096 := by
  show StableHlo.after hostOps0 (fun b => m (c, b)) (Proc.devRef .tc main_v0) = _
  after_results
  rfl

/-- The low-rank update: the activations' matrix times `Aᵀ`, times `Bᵀ`. -/
theorem V_v4_term (c : Dev nD) : (V m c main_v4 : S8192x4096.Idx → EReal)
    = Host.dotGeneral dot_S8192x32_S32x4096_S8192x4096_1_0_0_1_n_n none
        (Host.dotGeneral dot_S8192x4096_S4096x32_S8192x32_1_0_0_1_n_n none
          (shapeCast S8192x4096 (xin m c) shapeCasts_S4x2048x4096_S8192x4096)
          (transpose S4096x32 [1, 0] (ain m c) transposes_S32x4096_S4096x32_1_0))
        (transpose S32x4096 [1, 0] (bin m c) transposes_S4096x32_S32x4096_1_0) := by
  show StableHlo.after hostOps0 (fun b => m (c, b)) (Proc.devRef .tc main_v4) = _
  after_results
  rfl

/-- The gain over the row norm, as a one-row matrix. -/
theorem V_v11_term (c : Dev nD) : (V m c main_v11 : S1x4096.Idx → EReal)
    = shapeCast S1x4096 (Host.divf (gin m c) (Cert.Dora.rowNorm (win m c) (ain m c) (bin m c))) shapeCasts_S4096_S1x4096 := by
  show StableHlo.after hostOps0 (fun b => m (c, b)) (Proc.devRef .tc main_v11) = _
  after_results
  rfl

/-! ## The terms read at an index -/

section Reads
variable (x : S4x2048x4096.Idx → EReal) (A : S32x4096.Idx → EReal) (B : S4096x32.Idx → EReal)

/-- Row `r` of the matrix layout is `(r / 2048, r % 2048)` of the array: the two have one row-major position. -/
theorem reshape_apply (h : S4x2048x4096.ShapeCasts S8192x4096) (r : Fin 8192) (i : Fin 4096) :
    shapeCast S8192x4096 x h (ix2 r i) = x (ix3 (Cert.Dora.rowB r) (Cert.Dora.rowS r) i) :=
  shapeCast_apply x h _ _ (by
    rw [Shape.rowMajor_val_three, Shape.rowMajor_val_two]
    show ((Cert.Dora.rowB r).val * 2048 + (Cert.Dora.rowS r).val) * 4096 + i.val = r.val * 4096 + i.val
    simp only [Cert.Dora.rowB, Cert.Dora.rowS]
    omega)

/-- The down projection: the matrix layout times `Aᵀ`, at (r, k). -/
theorem down_apply (h : S4x2048x4096.ShapeCasts S8192x4096) (hA : S32x4096.Transposes [1, 0] S4096x32)
    (D : DotDims S8192x4096 S4096x32 S8192x32) (hD : Cert.RowBlock.IsRows.Plain D 1 0 0 1) (r : Fin 8192) (k : Fin 32) :
    (Host.dotGeneral D none (shapeCast S8192x4096 x h : FVec Ideal S8192x4096 .f32)
        (transpose S4096x32 [1, 0] A hA : FVec Ideal S4096x32 .f32) : S8192x32.Idx → EReal) (ix2 r k)
      = Cert.Dora.down x A (Cert.Dora.rowB r) (Cert.Dora.rowS r) k := by
  simp only [Host.dotGeneral]
  rw [Ideal.dotGeneral_apply, Cert.RowBlock.IsRows.dot_plain_sum D hD]
  unfold Cert.Dora.down
  exact Finset.sum_congr rfl fun i _ => by rw [reshape_apply, transpose_ix2_apply]

/-- The low-rank update: the down projection times `Bᵀ`, at (r, o). -/
theorem lora_apply (h : S4x2048x4096.ShapeCasts S8192x4096) (hA : S32x4096.Transposes [1, 0] S4096x32)
    (hB : S4096x32.Transposes [1, 0] S32x4096)
    (D : DotDims S8192x4096 S4096x32 S8192x32) (hD : Cert.RowBlock.IsRows.Plain D 1 0 0 1)
    (D' : DotDims S8192x32 S32x4096 S8192x4096) (hD' : Cert.RowBlock.IsRows.Plain D' 1 0 0 1) (r : Fin 8192) (o : Fin 4096) :
    (Host.dotGeneral D' none
        (Host.dotGeneral D none (shapeCast S8192x4096 x h : FVec Ideal S8192x4096 .f32)
          (transpose S4096x32 [1, 0] A hA : FVec Ideal S4096x32 .f32) : FVec Ideal S8192x32 .f32)
        (transpose S32x4096 [1, 0] B hB : FVec Ideal S32x4096 .f32) : S8192x4096.Idx → EReal) (ix2 r o)
      = Cert.Dora.lora x A B (Cert.Dora.rowB r) (Cert.Dora.rowS r) o := by
  simp only [Host.dotGeneral]
  rw [Ideal.dotGeneral_apply, Cert.RowBlock.IsRows.dot_plain_sum D' hD']
  unfold Cert.Dora.lora
  exact Finset.sum_congr rfl fun k _ => by
    rw [transpose_ix2_apply]
    exact congrArg (· * B (ix2 o k)) (down_apply x A h hA D hD r k)

end Reads

/-- The quotient as a one-row matrix reads, at (0, o), the quotient at `o`. -/
theorem quot_apply (g n : FVec Ideal S4096 .f32) (h : S4096.ShapeCasts S1x4096) (z : Fin 1) (o : Fin 4096) :
    (shapeCast S1x4096 (Host.divf g n) h : S1x4096.Idx → EReal) (ix2 z o) = Ideal.div (g (ix1 o)) (n (ix1 o)) := by
  rw [shapeCast_a_1a_apply]
  rfl

/-! ## The arrays as the region finds them, read at an index -/

theorem V_v0_apply (c : Dev nD) (r : Fin 8192) (i : Fin 4096) :
    (V m c main_v0 : S8192x4096.Idx → EReal) (ValueIdx.ix2 r i)
      = xin m c (ValueIdx.ix3 (Cert.Dora.rowB r) (Cert.Dora.rowS r) i) := by
  rw [V_v0_term]
  exact reshape_apply (xin m c) _ r i

theorem V_v4_apply (c : Dev nD) (r : Fin 8192) (o : Fin 4096) :
    (V m c main_v4 : S8192x4096.Idx → EReal) (ValueIdx.ix2 r o)
      = Cert.Dora.lora (xin m c) (ain m c) (bin m c) (Cert.Dora.rowB r) (Cert.Dora.rowS r) o := by
  rw [V_v4_term]
  exact lora_apply (xin m c) (ain m c) (bin m c) _ _ _ _ ⟨rfl, rfl, rfl, rfl, rfl, rfl⟩ _ ⟨rfl, rfl, rfl, rfl, rfl, rfl⟩ r o

theorem V_v11_apply (c : Dev nD) (z : Fin 1) (o : Fin 4096) :
    (V m c main_v11 : S1x4096.Idx → EReal) (ValueIdx.ix2 z o)
      = Ideal.div (gin m c (ValueIdx.ix1 o)) (Cert.Dora.rowNorm (win m c) (ain m c) (bin m c) (ValueIdx.ix1 o)) := by
  rw [V_v11_term]
  exact quot_apply (gin m c) _ _ z o

end Cert.KernelIdeal.HostValue

end
-- ==== Proof.KFinal.lean ====
/-
  The kernel program's result, read off its run: after the 512 points the region's output matrix [8192, 4096] holds,
  at row `r = 2048·b + s` and column `o`, the four stretches of `∑ᵢ x(b,s,i)·W(o,i)` summed from zero, plus the low-rank
  update at (b, s, o), times `g(o) / n(o)`; the closing reshape lays it out as [4, 2048, 4096].
-/
import proofs.«165296_j4243427688520_1_alg».proof.Proof.KAcc
import proofs.«165296_j4243427688520_1_alg».proof.Proof.KernelHost
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.HostValue

variable (m : (ℓ : Loc nD τ sig) → Buf (Elt Ideal) ℓ) (ρ : Dev nD → PrngReg)

/-- The matrix the region's output array ends at. -/
abbrev outMat (c : Dev nD) : S8192x4096.Idx → EReal :=
  Cert.Dora.kerMat (xin m c) (win m c) (ain m c) (bin m c) (gin m c)

/-- The program's result array. -/
abbrev outArr (c : Dev nD) : S4x2048x4096.Idx → EReal :=
  Cert.Dora.kerOut (xin m c) (win m c) (ain m c) (bin m c) (gin m c)

/-- A stretch's product over the region's arrays is that stretch of the base product over the arguments. -/
theorem stretch_eq (c : Dev nD) (i : Fin 16) (j : Fin 8) (k : Fin 4) (p q : Fin 512) :
    stretch m c i j k p q
      = Cert.Dora.part (xin m c) (win m c) k (Cert.Dora.rowB (xr i p)) (Cert.Dora.rowS (xr i p)) (wr j q) := by
  unfold stretch Cert.Dora.part
  refine Finset.sum_congr rfl fun kk _ => ?_
  rw [show xmat m c (ix2 (xr i p) (kc k kk)) = xin m c (ix3 (Cert.Dora.rowB (xr i p)) (Cert.Dora.rowS (xr i p)) (kc k kk)) from
    V_v0_apply m c (xr i p) (kc k kk)]
  rw [show wmat m c = win m c from V_main_arg1 m c]
  rfl

/-- The output block (i, j) at its last point is block (i, j) of that matrix. -/
theorem out_eq (c : Dev nD) (i : Fin 16) (j : Fin 8) (p q : Fin 512) :
    (outsAt0 m c (pt i j 3).val (pt i j 3).isLt).1 (ix2 p q) = outMat m c (ix2 (xr i p) (wr j q)) := by
  rw [out_apply, stretch_eq, stretch_eq, stretch_eq, stretch_eq]
  rw [show lmat m c (ix2 (xr i p) (wr j q)) = _ from V_v4_apply m c (xr i p) (wr j q)]
  rw [show srow m c (ix2 (0 : Fin 1) (wr j q)) = _ from V_v11_apply m c 0 (wr j q)]
  rfl

/-- What a flushing point writes back is its block of the matrix. -/
theorem flushed_eq (c : Dev nD) (t : Fin cfg0.N) (hf : (cfg0.win 4).flush t = true) :
    (dats m 0 c).flushed 4 t = ((cfg0.win 4).blk t).view.read (Elt Ideal) (outMat m c) := by
  have h3 : t.val % 4 = 3 := (flush0_4 t).mp hf
  have hlt : t.val < 512 := lt_of_lt_of_eq t.isLt hN
  obtain ⟨i, j, rfl⟩ : ∃ (i : Fin 16) (j : Fin 8), t = pt i j 3 :=
    ⟨⟨t.val / 32, by omega⟩, ⟨(t.val / 4) % 8, by omega⟩, Fin.ext (by rw [pt_val]; show t.val = 32 * (t.val / 32) + 4 * ((t.val / 4) % 8) + 3; omega)⟩
  show (cfg0.win 4).cut (grid0.coords (pt i j 3)) ((dats m 0 c).after 4 (pt i j 3)) = _
  rw [after0_4]
  obtain ⟨-, -, -, -, -, -, -, -, e0, e1⟩ := idx_facts (pt i j 3)
  funext y
  have hy0 : (y 0).val < 512 := (y 0).isLt
  have hy1 : (y 1).val < 512 := (y 1).isLt
  show (outsAt0 m c (pt i j 3).val (pt i j 3).isLt).1 y = outMat m c (((cfg0.win 4).blk (pt i j 3)).view.emb y)
  have ey : y = ix2 (⟨(y 0).val, hy0⟩ : Fin 512) (⟨(y 1).val, hy1⟩ : Fin 512) :=
    funext fun a => by match a with | ⟨0, _⟩ => rfl | ⟨1, _⟩ => rfl
  have eb : ((cfg0.win 4).blk (pt i j 3)).view.emb y = ix2 (xr i ⟨(y 0).val, hy0⟩) (wr j ⟨(y 1).val, hy1⟩) := by
    funext a
    apply Fin.ext
    match a with
    | ⟨0, _⟩ => show win0_4.index (pt i j 3) 0 * 512 + 1 * (y 0).val = 512 * i.val + (y 0).val; rw [e0, pt_val]; omega
    | ⟨1, _⟩ => show win0_4.index (pt i j 3) 1 * 512 + 1 * (y 1).val = 512 * j.val + (y 1).val; rw [e1, pt_val]; omega
  rw [eb]
  exact (congrArg (outsAt0 m c (pt i j 3).val (pt i j 3).isLt).1 ey).trans (out_eq m c i j _ _)

/-- Every entry of the matrix lies in the block of the flushing point of its row block and column block. -/
theorem covered (idx : S8192x4096.Idx) :
    ∃ t : Fin cfg0.N, (cfg0.win 4).flush t = true ∧ idx ∈ ((cfg0.win 4).blk t).view.set := by
  have h0 : (idx 0).val < 8192 := (idx 0).isLt
  have h1 : (idx 1).val < 4096 := (idx 1).isLt
  obtain ⟨i, hi⟩ : ∃ i : Fin 16, i.val = (idx 0).val / 512 := ⟨⟨(idx 0).val / 512, by omega⟩, rfl⟩
  obtain ⟨j, hj⟩ : ∃ j : Fin 8, j.val = (idx 1).val / 512 := ⟨⟨(idx 1).val / 512, by omega⟩, rfl⟩
  obtain ⟨-, -, -, -, -, -, -, -, e0, e1⟩ := idx_facts (pt i j 3)
  refine ⟨pt i j 3, (flush0_4 _).mpr (by rw [pt_val]; show (32 * i.val + 4 * j.val + 3) % 4 = 3; omega), ?_⟩
  show idx ∈ ((View.whole main_v12).slice (win0_4.rect (pt i j 3))).set
  rw [View.set_slice_whole, Rect.mem_set_unit]
  intro a
  match a with
  | ⟨0, _⟩ =>
    show win0_4.index (pt i j 3) 0 * 512 ≤ (idx 0).val ∧ (idx 0).val < win0_4.index (pt i j 3) 0 * 512 + 512
    rw [e0, pt_val]; show (32 * i.val + 4 * j.val + 3) / 32 * 512 ≤ (idx 0).val ∧ (idx 0).val < (32 * i.val + 4 * j.val + 3) / 32 * 512 + 512; omega
  | ⟨1, _⟩ =>
    show win0_4.index (pt i j 3) 1 * 512 ≤ (idx 1).val ∧ (idx 1).val < win0_4.index (pt i j 3) 1 * 512 + 512
    rw [e1, pt_val]; show (32 * i.val + 4 * j.val + 3) / 4 % 8 * 512 ≤ (idx 1).val ∧ (idx 1).val < (32 * i.val + 4 * j.val + 3) / 4 % 8 * 512 + 512; omega

/-- The 128 flushing points cover the matrix, so the output array ends at it. -/
theorem final_out (c : Dev nD) : (dats m 0 c).arrAt 4 cfg0.N = outMat m c :=
  (dats m 0 c).arrAt_eq_of_cover 4 (outMat m c) (flushed_eq m c) (covered)

/-- Row `2048·b + s` of the matrix is entry (b, s) of the array. -/
theorem kerAt_row (x : Cert.Dora.SX.Idx → EReal) (W : Cert.Dora.SW.Idx → EReal) (A : Cert.Dora.SA.Idx → EReal) (B : Cert.Dora.SB.Idx → EReal)
    (g : Cert.Dora.SV.Idx → EReal) (b : Fin 4) (s : Fin 2048) (o : Fin 4096) :
    Cert.Dora.kerAt x W A B g (Cert.Dora.rowB (Cert.Dora.row b s)) (Cert.Dora.rowS (Cert.Dora.row b s)) o = Cert.Dora.kerAt x W A B g b s o := by
  rw [Cert.Dora.rowB_row, Cert.Dora.rowS_row]

/-- The closing reshape of the matrix is the result array. -/
theorem tail_eq (c : Dev nD) :
    Pipeline.afterTail₀ cfgs (dats m) 0 (V0 m) [hostOps1] c main_v13 = outArr m c := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.tc.devRef main_v12)
      = outMat m c := (Pipeline.withArrays_arr spec0 launch0.win.arr_inj c _ _ 4).trans (final_out m c)
  funext jj
  show shapeCast S4x2048x4096 (Pipeline.withArrays (cfgs 0).spec c (V0 m c) (fun w => (dats m 0 c).arrAt w (cfgs 0).N) (Proc.tc.devRef main_v12))
    shapeCasts_S8192x4096_S4x2048x4096 jj = _
  rw [hw]
  have hj0 : (jj 0).val < 4 := (jj 0).isLt
  have hj1 : (jj 1).val < 2048 := (jj 1).isLt
  rw [shapeCast_apply (outMat m c) shapeCasts_S8192x4096_S4x2048x4096 jj (ix2 (Cert.Dora.row (jj 0) (jj 1)) (jj 2)) (by
    rw [Shape.rowMajor_val_three, Shape.rowMajor_val_two]
    show (2048 * (jj 0).val + (jj 1).val) * 4096 + (jj 2).val = ((jj 0).val * 2048 + (jj 1).val) * 4096 + (jj 2).val
    omega)]
  exact kerAt_row (xin m c) (win m c) (ain m c) (bin m c) (gin m c) (jj 0) (jj 1) (jj 2)

/-- The run, read: the result array at the specification's second arrangement, the arguments unchanged. -/
theorem run : θ_run defs (onTc (τ := τ) (main (F := Ideal))) ⟨m, fun _ => 0, ρ⟩ fun r => ∀ c : Dev nD,
      r.2.mem ((c.tc : Thread nD τ).loc main_v13) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue
end
-- ==== Proof.RefValue.lean ====
/-
  The reference program's result stage, read entry by entry, is the specification's first arrangement.

  At (b, s, o) the last stage multiplies a quotient by the gain g(o). The quotient's numerator is the sum of two
  contractions: x(b,s,·) against row o of W, and the down projection (x(b,s,·) against each row r of A) against row o
  of B. Its denominator is the row norm of the adapted weight at o, reached through two broadcasts that keep only the
  last coordinate. The row norm is never opened: as a term it is the specification's, because the two dimension records
  of the product B·A differ only in a proof field.
-/
import proofs.«165296_j4243427688520_1_alg».proof.Proof.Gen.ReferenceIdeal.Read
import proofs.«165296_j4243427688520_1_alg».proof.Proof.Spec

noncomputable section

namespace Cert.ReferenceIdeal.RefValue

open Cert.ReferenceIdeal Cert.ReferenceIdeal.Gen Idealize.ShloMosaic Idealize.ShloMosaic.ValueIdx

/-- The row-norm stage is the specification's row norm: the same operations on the same operands. -/
theorem norm_eq (W : (⟨S4096x4096, .f32⟩ : BufTy).Contents (Elt Ideal)) (A : (⟨S32x4096, .f32⟩ : BufTy).Contents (Elt Ideal))
    (B : (⟨S4096x32, .f32⟩ : BufTy).Contents (Elt Ideal)) :
    Read.val_main_v7 (F := Ideal) W A B = Cert.Dora.rowNorm W A B := by
  unfold Read.val_main_v7 Read.val_main_v6 Read.val_main_v5 Read.val_main_v4 Read.val_main_v3 Read.val_main_cst
    Cert.Dora.rowNorm
  rfl

/-- The left operand of the base product is read at (b, s, k). -/
theorem lidx0 (j : S4x2048x4096.Idx) (k : Fin 4096) : Read.lidx_main_v0 j k = ix3 (n0 := 4) (n1 := 2048) (n2 := 4096) (j 0) (j 1) k :=
  funext fun a => Fin.ext (by match a with | ⟨0, _⟩ => rfl | ⟨1, _⟩ => rfl | ⟨2, _⟩ => rfl)

/-- The right operand of the base product is read at (o, k). -/
theorem ridx0 (j : S4x2048x4096.Idx) (k : Fin 4096) : Read.ridx_main_v0 j k = ix2 (n0 := 4096) (n1 := 4096) (j 2) k :=
  funext fun a => Fin.ext (by match a with | ⟨0, _⟩ => rfl | ⟨1, _⟩ => rfl)

/-- The down projection inside the update is read at (b, s, r), so its left operand at (b, s, k). -/
theorem lidx1 (j : S4x2048x4096.Idx) (r : Fin 32) (k : Fin 4096) :
    Read.lidx_main_v1 (Read.lidx_main_v2 j r) k = ix3 (n0 := 4) (n1 := 2048) (n2 := 4096) (j 0) (j 1) k :=
  funext fun a => Fin.ext (by match a with | ⟨0, _⟩ => rfl | ⟨1, _⟩ => rfl | ⟨2, _⟩ => rfl)

/-- … and its right operand at (r, k). -/
theorem ridx1 (j : S4x2048x4096.Idx) (r : Fin 32) (k : Fin 4096) :
    Read.ridx_main_v1 (Read.lidx_main_v2 j r) k = ix2 (n0 := 32) (n1 := 4096) r k :=
  funext fun a => Fin.ext (by match a with | ⟨0, _⟩ => rfl | ⟨1, _⟩ => rfl)

/-- The right operand of the update is read at (o, r). -/
theorem ridx2 (j : S4x2048x4096.Idx) (r : Fin 32) : Read.ridx_main_v2 j r = ix2 (n0 := 4096) (n1 := 32) (j 2) r :=
  funext fun a => Fin.ext (by match a with | ⟨0, _⟩ => rfl | ⟨1, _⟩ => rfl)

/-- The two broadcasts of the norm keep the last coordinate. -/
theorem idx9 (j : S4x2048x4096.Idx) : Read.idx_main_v9 (Read.idx_main_v10 j) = ix1 (n := 4096) (j 2) :=
  funext fun a => Fin.ext (by match a with | ⟨0, _⟩ => rfl)

/-- The two broadcasts of the gain keep the last coordinate. -/
theorem idx12 (j : S4x2048x4096.Idx) : Read.idx_main_v12 (Read.idx_main_v13 j) = ix1 (n := 4096) (j 2) :=
  funext fun a => Fin.ext (by match a with | ⟨0, _⟩ => rfl)

/-- The reference's result is the specification's first arrangement. -/
theorem ref_eq (x : (⟨S4x2048x4096, .f32⟩ : BufTy).Contents (Elt Ideal)) (W : (⟨S4096x4096, .f32⟩ : BufTy).Contents (Elt Ideal))
    (A : (⟨S32x4096, .f32⟩ : BufTy).Contents (Elt Ideal)) (B : (⟨S4096x32, .f32⟩ : BufTy).Contents (Elt Ideal))
    (g : (⟨S4096, .f32⟩ : BufTy).Contents (Elt Ideal)) :
    Cert.ReferenceIdeal.Read.val_main_v14 (F := Ideal) x W A B g = Cert.Dora.refOut x W A B g := by
  funext j
  rw [Read.val_main_v14_apply, Read.val_main_v11_apply, Read.val_main_v13_apply, Read.val_main_v12_apply,
    Read.val_main_v10_apply, Read.val_main_v9_apply, Read.val_main_v8_apply, Read.val_main_v0_apply,
    Read.val_main_v2_apply, idx9, idx12, norm_eq, Ideal.mulf_def, Ideal.hostDivf_def, Ideal.addf_def]
  show _ = Cert.Dora.refAt x W A B g (j 0) (j 1) (j 2)
  unfold Cert.Dora.refAt Cert.Dora.base Cert.Dora.lora Cert.Dora.down
  -- the base product, term by term
  have hb : (∑ k : Fin 4096, x (Read.lidx_main_v0 j k) * W (Read.ridx_main_v0 j k))
      = ∑ i : Fin 4096, x (ix3 (n0 := 4) (n1 := 2048) (n2 := 4096) (j 0) (j 1) i) * W (ix2 (n0 := 4096) (n1 := 4096) (j 2) i) :=
    Finset.sum_congr rfl fun k _ => by rw [lidx0, ridx0]
  -- the update, term by term, the down projection inside it term by term
  have hl : (∑ r : Fin 32, Read.val_main_v1 (F := Ideal) x A (Read.lidx_main_v2 j r) * B (Read.ridx_main_v2 j r))
      = ∑ r : Fin 32, (∑ i : Fin 4096, x (ix3 (n0 := 4) (n1 := 2048) (n2 := 4096) (j 0) (j 1) i) * A (ix2 (n0 := 32) (n1 := 4096) r i))
          * B (ix2 (n0 := 4096) (n1 := 32) (j 2) r) :=
    Finset.sum_congr rfl fun r _ => by
      rw [Read.val_main_v1_apply, ridx2]
      exact congrArg (· * _) (Finset.sum_congr rfl fun k _ => by rw [lidx1, ridx1])
  rw [hb, hl]

end Cert.ReferenceIdeal.RefValue

end
-- ==== Proof.PreNorm.lean ====
/-
  The precondition makes every row norm of the specification nonzero.

  The precondition is a conjunction of six tests, each a single truth value; the last of them is "every entry of the
  vector of row norms is greater than zero", an `and` over all 4096 comparisons `n o > 0` started from true. A
  conjunction that is true has a true last conjunct; an `and` over an array that is true met only true entries; and on
  the extended reals the comparison `n o > 0` being true is the strict inequality `0 < n o`. So `n o ≠ 0` at every `o`.
  The vector of norms the test compares is the specification's `rowNorm W A B`, the same term: nothing is said here of
  what the norm is, only that it is above zero.
-/
import proofs.«165296_j4243427688520_1_alg».proof.Proof.Gen.Pre_finite_inputs
import proofs.«165296_j4243427688520_1_alg».proof.Proof.Spec
import Idealize.ShloMosaic.Lib.ReduceAll

noncomputable section

namespace Cert.Pre_finite_inputs.Norm

open Idealize.ShloMosaic Idealize.ShloMosaic.ValueIdx

/-- A shape of rank zero has one index: two indices are functions on the empty set of axes. -/
instance subsingleton_S_Idx : Subsingleton S_.Idx := ⟨fun _ _ => funext fun d => d.elim0⟩

/-- On the extended reals the ordered comparison `a > b` that came out true is the strict inequality `b < a`. -/
theorem lt_of_cmp_ogt {a b : EReal} (h : Ideal.cmp .ogt a b = 1#1) : b < a := by
  unfold Ideal.cmp at h
  by_contra hn
  simp [hn] at h

/-- Under the precondition no row of the adapted weight `W + B·A` has norm zero: the precondition's last conjunct says
    that every row norm is above zero. -/
theorem rowNorm_ne_zero (x : FVec Ideal S4x2048x4096 .f32) (W : FVec Ideal S4096x4096 .f32) (A : FVec Ideal S32x4096 .f32)
    (B : FVec Ideal S4096x32 .f32) (g : FVec Ideal S4096 .f32)
    (h : Cert.Pre_finite_inputs.fn (F := Ideal) x W A B g = fun _ => 1#1) (o : Fin 4096) :
    Cert.Dora.rowNorm W A B (ValueIdx.ix1 o) ≠ 0 := by
  -- the precondition's one truth value, as the conjunction of its six tests
  have h0 := congrFun h ValueIdx.ix0
  dsimp only [fn, fn_part1] at h0
  -- its last conjunct: the `and` over all entries of the comparison `norm > 0`
  have h1 := (IntOp.andi_eq_one.1 h0).2
  -- which therefore holds at the entry `o`
  have h2 := Host.reduce_andi_all _ _ _ _ _ h1 (ValueIdx.ix1 o)
  -- the compared vector is the specification's row norm, and the splat it is compared with reads zero's word at `o`
  have h3 : Ideal.cmp .ogt (Cert.Dora.rowNorm W A B (ValueIdx.ix1 o)) (Ideal.ofBits .f32 0x00000000#32) = 1#1 := h2
  have h4 := lt_of_cmp_ogt h3
  rw [Ideal.ofBits_zero_f32] at h4
  exact h4.ne'

end Cert.Pre_finite_inputs.Norm

end
-- ==== Proof.lean ====
/-
  The certificate of a low-rank-adapted, norm-rescaled linear layer.

  Inputs: activations `x` [4, 2048, 4096], a base weight `W` [4096, 4096], low-rank factors `A` [32, 4096] and
  `B` [4096, 32], a gain `g` [4096]. With `n(o)` the Euclidean norm of row `o` of `W + B·A`, the reference computes

      ((x·Wᵀ + (x·Aᵀ)·Bᵀ)(b,s,o) / n(o)) · g(o),

  and the kernel program computes `(x·Wᵀ + (x·Aᵀ)·Bᵀ)(b,s,o) · (g(o) / n(o))`, its `x·Wᵀ` accumulated from zero over four
  stretches of 1024 columns, one grid point each, on 512-row blocks of the activations laid out as a matrix [8192, 4096].
  The precondition asks every input to be finite and every `n(o)` to be positive (the reference divides by it). On the
  extended reals sums may be regrouped freely and products commute and associate, and a quotient by a nonzero `n` is the
  product with `n⁻¹`: so the two results are equal entry by entry (Proof/Spec.lean). Finiteness is not used.

  The kernel program's result is read off its run: each case of the body leaves in the scratch block the block it found
  plus the point's product (Proof/KPieces.lean, Proof/KPay.lean), four points make one output block (Proof/KAcc.lean), the 128
  output blocks tile the matrix and the closing reshape lays it out (Proof/KFinal.lean), over the arrays the host operations
  before the region computed (Proof/KernelHost.lean). The reference's result is read one operation at a time
  (Proof/RefValue.lean), and the precondition's last conjunct gives `n(o) ≠ 0` (Proof/PreNorm.lean).
-/
import proofs.«165296_j4243427688520_1_alg».proof.Defs
import proofs.«165296_j4243427688520_1_alg».proof.Proof.Gen.Kernel
import proofs.«165296_j4243427688520_1_alg».proof.Proof.Gen.Kernel.Skeleton
import proofs.«165296_j4243427688520_1_alg».proof.Proof.Gen.Kernel.Launch
import proofs.«165296_j4243427688520_1_alg».proof.Proof.Gen.Kernel.Points
import proofs.«165296_j4243427688520_1_alg».proof.Proof.Gen.Kernel.Frame
import proofs.«165296_j4243427688520_1_alg».proof.Proof.Gen.KernelIdeal
import proofs.«165296_j4243427688520_1_alg».proof.Proof.Gen.KernelIdeal.Skeleton
import proofs.«165296_j4243427688520_1_alg».proof.Proof.Gen.KernelIdeal.Launch
import proofs.«165296_j4243427688520_1_alg».proof.Proof.Gen.KernelIdeal.Points
import proofs.«165296_j4243427688520_1_alg».proof.Proof.Gen.KernelIdeal.Frame
import proofs.«165296_j4243427688520_1_alg».proof.Proof.Gen.ReferenceIdeal
import proofs.«165296_j4243427688520_1_alg».proof.Proof.Gen.ReferenceIdeal.Run
import proofs.«165296_j4243427688520_1_alg».proof.Proof.Gen.ReferenceIdeal.Read
import proofs.«165296_j4243427688520_1_alg».proof.Proof.Gen.Pre_finite_inputs
import proofs.«165296_j4243427688520_1_alg».proof.Proof.KFinal
import proofs.«165296_j4243427688520_1_alg».proof.Proof.RefValue
import proofs.«165296_j4243427688520_1_alg».proof.Proof.PreNorm
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the two readings of the kernel program. -/
theorem preserves : Cert.preserves_Kernel_KernelIdeal := trivial

/-- Both programs end at the same array: the kernel program at the accumulate-then-scale arrangement, the reference at the
    divide-then-scale one, equal where no row norm vanishes, which the precondition says. -/
theorem algebraic : Cert.algebraic_KernelIdeal_ReferenceIdeal := by
  intro m ρ m' ρ' hpre hagree
  refine ⟨fun c => Cert.KernelIdeal.KValue.outArr m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq,
    (hagree c).1, (hagree c).2.1, (hagree c).2.2.1, (hagree c).2.2.2.1, (hagree c).2.2.2.2]
  exact (Cert.Dora.kerOut_eq_refOut _ _ _ _ _ (Cert.Pre_finite_inputs.Norm.rowNorm_ne_zero _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
